-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  bcast_S_S16384x4096 : S_.BroadcastsInDim S16384x4096 (![] : Fin 0 → Fin S16384x4096.rank)
  reducesTo_S16384x4096_S_d0_1 : S16384x4096.ReducesTo [0, 1] S_
  h_S_ : 0 < S_.numel
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : FVec F S4096 .f32) (main_arg3 : FVec F S4096x4096 .f32) (main_v8 : IVec S4096x4096 1) (main_v17 : IVec S_ 1) : IVec S_ 1 :=
  let main_v18 : FVec F S4096 .f32 := Host.absf main_arg2
  let main_cst_4 : FVec F S_ .f32 := constant S_ .f32 0x7F800000#32
  let main_v19 : FVec F S4096 .f32 := broadcastInDim S4096 ![] bcast_S_S4096 main_cst_4
  let main_v20 : IVec S4096 1 := cmpf .olt main_v18 main_v19
  let main_c_5 : IVec S_ 1 := constantI S_ 1 1#1
  let main_v21 : IVec S_ 1 := (fun x v => Host.reduce IntOp.andi x v reducesTo_S4096_S_d0 h_S_) main_v20 main_c_5
  let main_v22 : IVec S_ 1 := andi main_v17 main_v21
  let main_v23 : FVec F S4096x4096 .f32 := Host.absf main_arg3
  let main_cst_6 : FVec F S_ .f32 := constant S_ .f32 0x7F800000#32
  let main_v24 : FVec F S4096x4096 .f32 := broadcastInDim S4096x4096 ![] bcast_S_S4096x4096 main_cst_6
  let main_v25 : IVec S4096x4096 1 := cmpf .olt main_v23 main_v24
  let main_c_7 : IVec S_ 1 := constantI S_ 1 1#1
  let main_v26 : IVec S_ 1 := (fun x v => Host.reduce IntOp.andi x v reducesTo_S4096x4096_S_d0_1 h_S_) main_v25 main_c_7
  let main_v27 : IVec S_ 1 := andi main_v22 main_v26
  let main_cst_8 : FVec F S_ .f32 := constant S_ .f32 0x00000000#32
  let main_v28 : FVec F S4096x4096 .f32 := broadcastInDim S4096x4096 ![] bcast_S_S4096x4096 main_cst_8
  let main_v29 : IVec S4096x4096 1 := cmpf .oeq main_arg3 main_v28
  let main_v30 : IVec S4096x4096 1 := ori main_v8 main_v29
  let main_c_9 : IVec S_ 1 := constantI S_ 1 1#1
  let main_v31 : IVec S_ 1 := (fun x v => Host.reduce IntOp.andi x v reducesTo_S4096x4096_S_d0_1 h_S_) main_v30 main_c_9
  let main_v32 : IVec S_ 1 := andi main_v27 main_v31
  main_v32

def fn {F : FTy → Type} [FloatOps F] (main_arg0 : FVec F S16384x4096 .f32) (main_arg1 : FVec F S4096x4096 .f32) (main_arg2 : FVec F S4096 .f32) (main_arg3 : FVec F S4096x4096 .f32) : IVec S_ 1 :=
  let main_v0 : IVec S4096x4096 32 := iotaInDim S4096x4096 32 0
  let main_v1 : IVec S4096x4096 32 := iotaInDim S4096x4096 32 1
  let main_c : IVec S_ 32 := constantI S_ 32 8#32
  let main_v2 : IVec S4096x4096 32 := broadcastInDim S4096x4096 ![] bcast_S_S4096x4096 main_c
  let main_v3 : IVec S4096x4096 32 := addi main_v1 main_v2
  let main_v4 : IVec S4096x4096 1 := cmpi .sle main_v0 main_v3
  let main_c_0 : IVec S_ 32 := constantI S_ 32 8#32
  let main_v5 : IVec S4096x4096 32 := broadcastInDim S4096x4096 ![] bcast_S_S4096x4096 main_c_0
  let main_v6 : IVec S4096x4096 32 := addi main_v0 main_v5
  let main_v7 : IVec S4096x4096 1 := cmpi .sle main_v1 main_v6
  let main_v8 : IVec S4096x4096 1 := andi main_v4 main_v7
  let main_v9 : FVec F S16384x4096 .f32 := Host.absf main_arg0
  let main_cst : FVec F S_ .f32 := constant S_ .f32 0x7F800000#32
  let main_v10 : FVec F S16384x4096 .f32 := broadcastInDim S16384x4096 ![] bcast_S_S16384x4096 main_cst
  let main_v11 : IVec S16384x4096 1 := cmpf .olt main_v9 main_v10
  let main_c_1 : IVec S_ 1 := constantI S_ 1 1#1
  let main_v12 : IVec S_ 1 := (fun x v => Host.reduce IntOp.andi x v reducesTo_S16384x4096_S_d0_1 h_S_) main_v11 main_c_1
  let main_v13 : FVec F S4096x4096 .f32 := Host.absf main_arg1
  let main_cst_2 : FVec F S_ .f32 := constant S_ .f32 0x7F800000#32
  let main_v14 : FVec F S4096x4096 .f32 := broadcastInDim S4096x4096 ![] bcast_S_S4096x4096 main_cst_2
  let main_v15 : IVec S4096x4096 1 := cmpf .olt main_v13 main_v14
  let main_c_3 : IVec S_ 1 := constantI S_ 1 1#1
  let main_v16 : IVec S_ 1 := (fun x v => Host.reduce IntOp.andi x v reducesTo_S4096x4096_S_d0_1 h_S_) main_v15 main_c_3
  let main_v17 : IVec S_ 1 := andi main_v12 main_v16
  fn_part1 (F := F) main_arg2 main_arg3 main_v8 main_v17
-- ==== Kernel.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4608x4096 : Shape := ⟨2, ![4608, 4096]⟩
abbrev S768x256 : Shape := ⟨2, ![768, 256]⟩
abbrev S1x768x256 : Shape := ⟨3, ![1, 768, 256]⟩
abbrev S16x768x256 : Shape := ⟨3, ![16, 768, 256]⟩
abbrev S1x4096 : Shape := ⟨2, ![1, 4096]⟩
abbrev S16384x4608 : Shape := ⟨2, ![16384, 4608]⟩
abbrev S512x4608 : Shape := ⟨2, ![512, 4608]⟩
abbrev S1x256 : Shape := ⟨2, ![1, 256]⟩
abbrev S512x256 : Shape := ⟨2, ![512, 256]⟩
abbrev S512x768 : Shape := ⟨2, ![512, 768]⟩

abbrev nBuf : Space → Nat
  | .hbm => 48
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .i32⟩
  | .hbm, ⟨7, _⟩ => ⟨S_, .f32⟩
  | .hbm, ⟨8, _⟩ => ⟨S4608x4096, .f32⟩
  | .hbm, ⟨9, _⟩ => ⟨S768x256, .f32⟩
  | .hbm, ⟨10, _⟩ => ⟨S768x256, .f32⟩
  | .hbm, ⟨11, _⟩ => ⟨S768x256, .f32⟩
  | .hbm, ⟨12, _⟩ => ⟨S768x256, .f32⟩
  | .hbm, ⟨13, _⟩ => ⟨S768x256, .f32⟩
  | .hbm, ⟨14, _⟩ => ⟨S768x256, .f32⟩
  | .hbm, ⟨15, _⟩ => ⟨S768x256, .f32⟩
  | .hbm, ⟨16, _⟩ => ⟨S768x256, .f32⟩
  | .hbm, ⟨17, _⟩ => ⟨S768x256, .f32⟩
  | .hbm, ⟨18, _⟩ => ⟨S768x256, .f32⟩
  | .hbm, ⟨19, _⟩ => ⟨S768x256, .f32⟩
  | .hbm, ⟨20, _⟩ => ⟨S768x256, .f32⟩
  | .hbm, ⟨21, _⟩ => ⟨S768x256, .f32⟩
  | .hbm, ⟨22, _⟩ => ⟨S768x256, .f32⟩
  | .hbm, ⟨23, _⟩ => ⟨S768x256, .f32⟩
  | .hbm, ⟨24, _⟩ => ⟨S768x256, .f32⟩
  | .hbm, ⟨25, _⟩ => ⟨S1x768x256, .f32⟩
  | .hbm, ⟨26, _⟩ => ⟨S1x768x256, .f32⟩
  | .hbm, ⟨27, _⟩ => ⟨S1x768x256, .f32⟩
  | .hbm, ⟨28, _⟩ => ⟨S1x768x256, .f32⟩
  | .hbm, ⟨29, _⟩ => ⟨S1x768x256, .f32⟩
  | .hbm, ⟨30, _⟩ => ⟨S1x768x256, .f32⟩
  | .hbm, ⟨31, _⟩ => ⟨S1x768x256, .f32⟩
  | .hbm, ⟨32, _⟩ => ⟨S1x768x256, .f32⟩
  | .hbm, ⟨33, _⟩ => ⟨S1x768x256, .f32⟩
  | .hbm, ⟨34, _⟩ => ⟨S1x768x256, .f32⟩
  | .hbm, ⟨35, _⟩ => ⟨S1x768x256, .f32⟩
  | .hbm, ⟨36, _⟩ => ⟨S1x768x256, .f32⟩
  | .hbm, ⟨37, _⟩ => ⟨S1x768x256, .f32⟩
  | .hbm, ⟨38, _⟩ => ⟨S1x768x256, .f32⟩
  | .hbm, ⟨39, _⟩ => ⟨S1x768x256, .f32⟩
  | .hbm, ⟨40, _⟩ => ⟨S1x768x256, .f32⟩
  | .hbm, ⟨41, _⟩ => ⟨S16x768x256, .f32⟩
  | .hbm, ⟨42, _⟩ => ⟨S16x768x256, .bf16⟩
  | .hbm, ⟨43, _⟩ => ⟨S1x4096, .f32⟩
  | .hbm, ⟨44, _⟩ => ⟨S_, .i32⟩
  | .hbm, ⟨45, _⟩ => ⟨S_, .f32⟩
  | .hbm, ⟨46, _⟩ => ⟨S16384x4608, .f32⟩
  | .hbm, ⟨47, _⟩ => ⟨S16384x4096, .f32⟩
  | .local _ .vmem, ⟨0, _⟩ => ⟨S512x4608, .f32⟩
  | .local _ .vmem, ⟨1, _⟩ => ⟨S512x4608, .f32⟩
  | .local _ .vmem, ⟨2, _⟩ => ⟨S16x768x256, .bf16⟩
  | .local _ .vmem, ⟨3, _⟩ => ⟨S1x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_0 : Ref sig .tc := ⟨.hbm, 44, rfl⟩
abbrev main_call1_v0 : Ref sig .tc := ⟨.hbm, 45, rfl⟩
abbrev main_v38 : Ref sig .tc := ⟨.hbm, 46, rfl⟩
abbrev main_v39 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  ![0, v2.toNat]
def k0_off2 (i : grid0.Coords) : Fin 3 → Nat :=
  let arg1 : BitVec 32 := BitVec.ofNat 32 (i 1).val
  let v6 : Index := Scalar.indexCast arg1
  let c0_0 : Index := 0#32
  let c0_1 : Index := 0#32
  ![v6.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4096x4096_S4096x4096_1_0 : S4096x4096.Transposes [1, 0] S4096x4096
  pads_S4096x4096_S4608x4096_2562560_000 : S4096x4096.Pads (![256, 0] : Fin 2 → Nat) ![256, 0] ![0, 0] S4608x4096
  h_S_ : 0 < S_.numel
  slices_S4608x4096_S768x256_0_0 : S4608x4096.Slices ![0, 0] S768x256
  slices_S4608x4096_S768x256_256_256 : S4608x4096.Slices ![256, 256] S768x256
  slices_S4608x4096_S768x256_512_512 : S4608x4096.Slices ![512, 512] S768x256
  slices_S4608x4096_S768x256_768_768 : S4608x4096.Slices ![768, 768] S768x256
  slices_S4608x4096_S768x256_1024_1024 : S4608x4096.Slices ![1024, 1024] S768x256
  slices_S4608x4096_S768x256_1280_1280 : S4608x4096.Slices ![1280, 1280] S768x256
  slices_S4608x4096_S768x256_1536_1536 : S4608x4096.Slices ![1536, 1536] S768x256
  slices_S4608x4096_S768x256_1792_1792 : S4608x4096.Slices ![1792, 1792] S768x256
  slices_S4608x4096_S768x256_2048_2048 : S4608x4096.Slices ![2048, 2048] S768x256
  slices_S4608x4096_S768x256_2304_2304 : S4608x4096.Slices ![2304, 2304] S768x256
  slices_S4608x4096_S768x256_2560_2560 : S4608x4096.Slices ![2560, 2560] S768x256
  slices_S4608x4096_S768x256_2816_2816 : S4608x4096.Slices ![2816, 2816] S768x256
  slices_S4608x4096_S768x256_3072_3072 : S4608x4096.Slices ![3072, 3072] S768x256
  slices_S4608x4096_S768x256_3328_3328 : S4608x4096.Slices ![3328, 3328] S768x256
  slices_S4608x4096_S768x256_3584_3584 : S4608x4096.Slices ![3584, 3584] S768x256
  slices_S4608x4096_S768x256_3840_3840 : S4608x4096.Slices ![3840, 3840] S768x256
  bcast_S768x256_S1x768x256_1_2 : S768x256.BroadcastsInDim S1x768x256 (![1, 2] : Fin 2 → Fin S1x768x256.rank)
  concatenates_S1x768x256_S1x768x256_S1x768x256_S1x768x256_S1x768x256_S1x768x256_S1x768x256_S1x768x256_S1x768x256_S1x768x256_S1x768x256_S1x768x256_S1x768x256_S1x768x256_S1x768x256_S1x768x256_S16x768x256_d0 : Shape.Concatenates [S1x768x256, S1x768x256, S1x768x256, S1x768x256, S1x768x256, S1x768x256, S1x768x256, S1x768x256, S1x768x256, S1x768x256, S1x768x256, S1x768x256, S1x768x256, S1x768x256, S1x768x256, S1x768x256] S16x768x256 0
  bitsLt_bf16_f32 : FTy.bits .bf16 < FTy.bits .f32
  shapeCasts_S4096_S1x4096 : S4096.ShapeCasts S1x4096
  pads_S16384x4096_S16384x4608_000_2562560 : S16384x4096.Pads (![0, 256] : Fin 2 → Nat) ![0, 256] ![0, 0] S16384x4608
  h_S512x768 : 0 < S512x768.numel
  shapeCasts_S512x768_S512x768 : S512x768.ShapeCasts S512x768
  h_S1x768x256 : 0 < S1x768x256.numel
  shapeCasts_S1x768x256_S768x256 : S1x768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x768_S768x256_S512x256_1_0_0_1_n_n_wf : DotDims.WF S512x768 S768x256 S512x256 [1] [0] [0] [1] [] []
  hrank0 : 0 < grid0.rank
  k0_mult1_dvd : ∀ i : grid0.Coords, 128 ∣ (k0_mult1 i).toNat
  k0_off1_inb : ∀ i : grid0.Coords, ∀ a, (k0_off1 i) a + S512x768.size a ≤ S512x4608.size a
  k0_off2_inb : ∀ i : grid0.Coords, ∀ a, (k0_off2 i) a + S1x768x256.size a ≤ S16x768x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4608.size a ≤ S16384x4608.size a
  hwx0_0 : ∀ i : grid0.Coords, EltTy.bits .f32 = 32 ∨ (Rect.block (s := S16384x4608) S512x4608.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x768x256.size a ≤ S16x768x256.size a
  hwx0_1 : ∀ i : grid0.Coords, EltTy.bits .bf16 = 32 ∨ (Rect.block (s := S16x768x256) S16x768x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S16384x4096.size a
  hwx0_3 : ∀ i : grid0.Coords, EltTy.bits .f32 = 32 ∨ (Rect.block (s := S16384x4096) S512x256.size (cc0_transform_3 i) (hinb0_3 i)).WholeWords (EltTy.packing .f32)

variable [Facts₀]

def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf

abbrev win0_0 : Pipeline.Window sig grid0 :=
  Pipeline.Window.ofSpec (Memref.whole main_v38) S512x4608.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S16x768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.EntryK.lean ====
/-
  The program up to its one kernel launch: the host operations before the launch, taken as the four stretches the
  program's text has (the product w ⊙ mask and its transpose; the padding of its rows; the sixteen diagonal
  slabs, their stacking, the change of format and the bias as a row; the padding of x's columns), and what each
  buffer of the core holds when the launch is reached: the host operations' results over the memory the program
  was started from.  No host operation writes an argument array, so the launch finds each as it was.
-/
import proofs.«420151_j14474039788006_3_alg».proof.Proof.Gen.Kernel.Launch
import proofs.«420151_j14474039788006_3_alg».proof.Proof.Gen.Kernel.Skeleton
import proofs.«420151_j14474039788006_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the launch -/

/-- Core `c`'s buffers when the launch is reached: the four stretches of host operations applied, in order, to the
    memory the program was started from. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program is its host stretches followed by the launch, and the launch finds the memory at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the launch writes x. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes w. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes the mask. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

end Cert.Kernel.Fr

end
-- ==== Proof.FrameK.lean ====
/-
  The frame of the program: it runs to the end, nothing faults, and its four argument arrays end as they began.

  The launch is one pipelined kernel on a 32 × 16 grid with three staged inputs (a 512-row tile of the padded x, the
  whole table of weight slabs, a 256-column piece of the bias row) and one staged output (a 512 × 256 tile).  At the
  point (i, j) the body loads the 768 columns of the x tile that start at column 256·j, the slab j of the table, the
  bias piece and (unused) the output buffer, and stores one value over the whole output buffer.  So what the output's
  buffer holds after the body is that one stored value, a function of the point and of the three input blocks; the
  inputs' buffers are left as found.  The body's run is by symbolic execution; the launch is the library's pipeline
  theorem over these per-point contents; the arguments are staged by no window and written by no host operation, so
  they are found at the end as the launch found them, which is as they began.
-/
import proofs.«420151_j14474039788006_3_alg».proof.Proof.EntryK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x tile's buffer holds its block at every point, whether the point fetches it or not (between fetches the
    block index does not move), for any per-point contents that leave it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the table of slabs, fetched once. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the bias piece, fetched at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- From a run that ends with every buffer no window stages as the launch found it: the four arguments are such
    buffers, and the launch found them as the program began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

/-- The 512 × 768 columns of the x tile starting at column 256·j, at the point `i = (·, j)`. -/
abbrev r0_0 (i : grid0.Coords) : Rect S512x4608 := Rect.unit (s := S512x4608) (k0_off1 i) S512x768.size (k0_off1_inb i)
/-- Slab j of the table, at the point `i = (·, j)`. -/
abbrev r0_1 (i : grid0.Coords) : Rect S16x768x256 := Rect.unit (s := S16x768x256) (k0_off2 i) S1x768x256.size (k0_off2_inb i)
abbrev r0_2 : Rect S1x256 := Rect.unit (s := S1x256) ![0, 0] S1x256.size inb_S1x256_S1x256_0_0
abbrev r0_3 : Rect S512x256 := Rect.unit (s := S512x256) ![0, 0] S512x256.size inb_S512x256_S512x256_0_0

/-! ## What the body leaves in the output's buffer -/

/-- The output's buffer after the body at point `i`, from the three input blocks: its one store, over the whole buffer,
    of the body's value of the three loads. -/
def out0_3 (i : grid0.Coords) (x0 : Vec F S512x4608 .f32) (x1 : Vec F S16x768x256 .bf16) (x2 : Vec F S1x256 .f32) : Vec F S512x256 .f32 :=
  View.canon [⟨r0_3, k0_pay1 (View.ld x0 (r0_0 i)) (View.ld x1 (r0_1 i)) (View.ld x2 r0_2)⟩]

/-- The one store covers the buffer. -/
theorem cover0_3 (p0 : Vec F S512x256 .f32) (y : S512x256.Idx) :
    ∃ pc ∈ ([⟨r0_3, p0⟩] : List (View.Piece (Elt F) S512x256 .f32)), y ∈ pc.1.set :=
  View.cover_of_tiled [⟨r0_3, p0⟩] S512x256.size (by rfl) y

/-! ## The body's run -/

set_option maxHeartbeats 1000000 in
/-- The body at point `i`, on whole buffers, the inputs' at contents `x0 x1 x2` and the output's at anything, runs to
    the continuation with the inputs' buffers as they were and the output's at `out0_3 i x0 x1 x2`. -/
theorem sound_kernel (c : Dev nD) (E : Set ℕ) (i : grid0.Coords)
    (arg2 : Memref sig .tc .vmem S512x4608 .f32) (harg2 : arg2.IsWhole) (arg3 : Memref sig .tc .vmem S16x768x256 .bf16) (harg3 : arg3.IsWhole)
    (arg4 : Memref sig .tc .vmem S1x256 .f32) (harg4 : arg4.IsWhole) (arg5 : Memref sig .tc .vmem S512x256 .f32) (harg5 : arg5.IsWhole)
    (x0 : Vec F S512x4608 .f32) (x1 : Vec F S16x768x256 .bf16) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2)) -∗ K ⟨⟩))
      ⊢ wp frame (wpE (defs₀ (F := F)) Variants.none c none) E (cc0__band_linear_kernel i arg2 harg2 arg3 harg3 arg4 harg4 arg5 harg5) K := by
  simp only [cc0__band_linear_kernel_eq_skeleton]; unfold cc0__band_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's per-point contents -/

/-- On core `c`: the arrays as the launch finds them; after the body at point `t` each input's buffer at its block and
    the output's at `out0_3` of the point and the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's run applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline ending at what the per-point contents compute and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.EntryI.lean ====
/-
  The program up to its one kernel launch: the host operations before the launch, taken as the four stretches the
  program's text has (the product w ⊙ mask and its transpose; the padding of its rows; the sixteen diagonal
  slabs, their stacking, the change of format and the bias as a row; the padding of x's columns), and what each
  buffer of the core holds when the launch is reached: the host operations' results over the memory the program
  was started from.  No host operation writes an argument array, so the launch finds each as it was.
-/
import proofs.«420151_j14474039788006_3_alg».proof.Proof.Gen.KernelIdeal.Launch
import proofs.«420151_j14474039788006_3_alg».proof.Proof.Gen.KernelIdeal.Skeleton
import proofs.«420151_j14474039788006_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the launch -/

/-- Core `c`'s buffers when the launch is reached: the four stretches of host operations applied, in order, to the
    memory the program was started from. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program is its host stretches followed by the launch, and the launch finds the memory at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the launch writes x. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes w. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes the mask. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

end Cert.KernelIdeal.Fr

end
-- ==== Proof.FrameI.lean ====
/-
  The frame of the program: it runs to the end, nothing faults, and its four argument arrays end as they began.

  The launch is one pipelined kernel on a 32 × 16 grid with three staged inputs (a 512-row tile of the padded x, the
  whole table of weight slabs, a 256-column piece of the bias row) and one staged output (a 512 × 256 tile).  At the
  point (i, j) the body loads the 768 columns of the x tile that start at column 256·j, the slab j of the table, the
  bias piece and (unused) the output buffer, and stores one value over the whole output buffer.  So what the output's
  buffer holds after the body is that one stored value, a function of the point and of the three input blocks; the
  inputs' buffers are left as found.  The body's run is by symbolic execution; the launch is the library's pipeline
  theorem over these per-point contents; the arguments are staged by no window and written by no host operation, so
  they are found at the end as the launch found them, which is as they began.
-/
import proofs.«420151_j14474039788006_3_alg».proof.Proof.EntryI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x tile's buffer holds its block at every point, whether the point fetches it or not (between fetches the
    block index does not move), for any per-point contents that leave it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the table of slabs, fetched once. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the bias piece, fetched at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- From a run that ends with every buffer no window stages as the launch found it: the four arguments are such
    buffers, and the launch found them as the program began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

/-- The 512 × 768 columns of the x tile starting at column 256·j, at the point `i = (·, j)`. -/
abbrev r0_0 (i : grid0.Coords) : Rect S512x4608 := Rect.unit (s := S512x4608) (k0_off1 i) S512x768.size (k0_off1_inb i)
/-- Slab j of the table, at the point `i = (·, j)`. -/
abbrev r0_1 (i : grid0.Coords) : Rect S16x768x256 := Rect.unit (s := S16x768x256) (k0_off2 i) S1x768x256.size (k0_off2_inb i)
abbrev r0_2 : Rect S1x256 := Rect.unit (s := S1x256) ![0, 0] S1x256.size inb_S1x256_S1x256_0_0
abbrev r0_3 : Rect S512x256 := Rect.unit (s := S512x256) ![0, 0] S512x256.size inb_S512x256_S512x256_0_0

/-! ## What the body leaves in the output's buffer -/

/-- The output's buffer after the body at point `i`, from the three input blocks: its one store, over the whole buffer,
    of the body's value of the three loads. -/
def out0_3 (i : grid0.Coords) (x0 : Vec F S512x4608 .f32) (x1 : Vec F S16x768x256 .bf16) (x2 : Vec F S1x256 .f32) : Vec F S512x256 .f32 :=
  View.canon [⟨r0_3, k0_pay1 (View.ld x0 (r0_0 i)) (View.ld x1 (r0_1 i)) (View.ld x2 r0_2)⟩]

/-- The one store covers the buffer. -/
theorem cover0_3 (p0 : Vec F S512x256 .f32) (y : S512x256.Idx) :
    ∃ pc ∈ ([⟨r0_3, p0⟩] : List (View.Piece (Elt F) S512x256 .f32)), y ∈ pc.1.set :=
  View.cover_of_tiled [⟨r0_3, p0⟩] S512x256.size (by rfl) y

/-! ## The body's run -/

set_option maxHeartbeats 1000000 in
/-- The body at point `i`, on whole buffers, the inputs' at contents `x0 x1 x2` and the output's at anything, runs to
    the continuation with the inputs' buffers as they were and the output's at `out0_3 i x0 x1 x2`. -/
theorem sound_kernel (c : Dev nD) (E : Set ℕ) (i : grid0.Coords)
    (arg2 : Memref sig .tc .vmem S512x4608 .f32) (harg2 : arg2.IsWhole) (arg3 : Memref sig .tc .vmem S16x768x256 .bf16) (harg3 : arg3.IsWhole)
    (arg4 : Memref sig .tc .vmem S1x256 .f32) (harg4 : arg4.IsWhole) (arg5 : Memref sig .tc .vmem S512x256 .f32) (harg5 : arg5.IsWhole)
    (x0 : Vec F S512x4608 .f32) (x1 : Vec F S16x768x256 .bf16) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2)) -∗ K ⟨⟩))
      ⊢ wp frame (wpE (defs₀ (F := F)) Variants.none c none) E (cc0__band_linear_kernel i arg2 harg2 arg3 harg3 arg4 harg4 arg5 harg5) K := by
  simp only [cc0__band_linear_kernel_eq_skeleton]; unfold cc0__band_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's per-point contents -/

/-- On core `c`: the arrays as the launch finds them; after the body at point `t` each input's buffer at its block and
    the output's at `out0_3` of the point and the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's run applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline ending at what the per-point contents compute and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.PayI.lean ====
/-
  The body's stored value at an index (at the exact instance): entry (r, c) of the 512 × 256 tile is the
  contraction over the 768 loaded columns of row r of the loaded x columns with column c of the loaded slab, plus the
  bias piece at column c.  The matrix product into a zero accumulator is the plain sum; the changes of float format
  and the reshapes that keep the layout are the identity; the bias row is broadcast down the 512 rows.
-/
import proofs.«420151_j14474039788006_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-- The left operand's row coordinate at an output index is the output's row. -/
theorem lhs_dot_0 (i : S512x256.Idx) (q : dot_S512x768_S768x256_S512x256_1_0_0_1_n_n.contr.Idx) :
    (dot_S512x768_S768x256_S512x256_1_0_0_1_n_n.lhsIdx i q 0).val = (i 0).val := by
  unfold DotDims.lhsIdx
  rw [dif_neg (show ¬(0 : Fin S512x768.rank) ∈ dot_S512x768_S768x256_S512x256_1_0_0_1_n_n.lhsBatch by decide), dif_pos (show (0 : Fin S512x768.rank) ∈ dot_S512x768_S768x256_S512x256_1_0_0_1_n_n.lhsNonContracting by decide)]
  rfl
/-- The left operand's column coordinate is the contraction index. -/
theorem lhs_dot_1 (i : S512x256.Idx) (q : dot_S512x768_S768x256_S512x256_1_0_0_1_n_n.contr.Idx) :
    (dot_S512x768_S768x256_S512x256_1_0_0_1_n_n.lhsIdx i q 1).val = (q ⟨0, by decide⟩).val :=
  dot_S512x768_S768x256_S512x256_1_0_0_1_n_n.lhsIdx_val_of_single rfl i q
/-- The right operand's row coordinate is the contraction index. -/
theorem rhs_dot_0 (i : S512x256.Idx) (q : dot_S512x768_S768x256_S512x256_1_0_0_1_n_n.contr.Idx) :
    (dot_S512x768_S768x256_S512x256_1_0_0_1_n_n.rhsIdx i q 0).val = (q ⟨0, by decide⟩).val :=
  dot_S512x768_S768x256_S512x256_1_0_0_1_n_n.rhsIdx_val_of_single rfl i q
/-- The right operand's column coordinate at an output index is the output's column. -/
theorem rhs_dot_1 (i : S512x256.Idx) (q : dot_S512x768_S768x256_S512x256_1_0_0_1_n_n.contr.Idx) :
    (dot_S512x768_S768x256_S512x256_1_0_0_1_n_n.rhsIdx i q 1).val = (i 1).val := by
  unfold DotDims.rhsIdx
  rw [dif_neg (show ¬(1 : Fin S768x256.rank) ∈ dot_S512x768_S768x256_S512x256_1_0_0_1_n_n.rhsBatch by decide), dif_pos (show (1 : Fin S768x256.rank) ∈ dot_S512x768_S768x256_S512x256_1_0_0_1_n_n.rhsNonContracting by decide)]
  rfl

/-- The matrix product into the zero accumulator, at row r and column cc: the sum over the 768 contraction positions
    of the left operand at (r, k) times the right operand at (k, cc). -/
theorem matmul_zero_apply (a : FVec Ideal S512x768 .bf16) (bm : FVec Ideal S768x256 .bf16) (r : Fin 512) (cc : Fin 256) :
    (matmul (F := Ideal) dot_S512x768_S768x256_S512x256_1_0_0_1_n_n none a bm (constant (F := Ideal) S512x256 .f32 0x00000000#32)) (ix2 r cc)
      = ∑ k : Fin 768, a (ix2 r k) * bm (ix2 k cc) := by
  show FloatOps.matmul dot_S512x768_S768x256_S512x256_1_0_0_1_n_n none a bm (constant (F := Ideal) S512x256 .f32 0x00000000#32) (ix2 r cc) = _
  rw [Ideal.matmul_constant_zero_apply, ← Equiv.sum_comp (contrEquiv1 dot_S512x768_S768x256_S512x256_1_0_0_1_n_n 768 rfl rfl).symm]
  refine Finset.sum_congr rfl fun k _ => ?_
  have hk := contrEquiv1_symm_val dot_S512x768_S768x256_S512x256_1_0_0_1_n_n 768 rfl rfl k
  have el : dot_S512x768_S768x256_S512x256_1_0_0_1_n_n.lhsIdx (ix2 r cc) ((contrEquiv1 dot_S512x768_S768x256_S512x256_1_0_0_1_n_n 768 rfl rfl).symm k) = ix2 r k := funext fun a => Fin.ext (by
    match a with
    | ⟨0, _⟩ => exact lhs_dot_0 _ _
    | ⟨1, _⟩ => exact (lhs_dot_1 _ _).trans hk)
  have er : dot_S512x768_S768x256_S512x256_1_0_0_1_n_n.rhsIdx (ix2 r cc) ((contrEquiv1 dot_S512x768_S768x256_S512x256_1_0_0_1_n_n 768 rfl rfl).symm k) = ix2 k cc := funext fun a => Fin.ext (by
    match a with
    | ⟨0, _⟩ => exact (rhs_dot_0 _ _).trans hk
    | ⟨1, _⟩ => exact rhs_dot_1 _ _)
  rw [el, er]

/-- The stored value at row r, column cc, from the three loaded values. -/
theorem pay_apply (v3 : Vec Ideal S512x768 .f32) (v7 : Vec Ideal S1x768x256 .bf16) (v10 : Vec Ideal S1x256 .f32)
    (r : Fin 512) (cc : Fin 256) :
    (k0_pay1 (F := Ideal) v3 v7 v10 : S512x256.Idx → EReal) (ix2 r cc)
      = (∑ k : Fin 768, (v3 (ix2 r k) : EReal) * (v7 (ix3 (0 : Fin 1) k cc) : EReal)) + (v10 (ix2 (0 : Fin 1) cc) : EReal) := by
  unfold k0_pay1
  refine (addf_apply _ _ (ix2 r cc)).trans ?_
  refine congrArg₂ (· + ·) ?_ ?_
  · refine (matmul_zero_apply _ _ r cc).trans ?_
    refine Finset.sum_congr rfl fun k _ => ?_
    refine congrArg₂ (· * ·) ?_ ?_
    · exact congrFun (shapeCast_self v3 shapeCasts_S512x768_S512x768) (ix2 r k)
    · exact shapeCast_1ab_ab_apply v7 shapeCasts_S1x768x256_S768x256 k cc
  · refine (broadcastTo_1b_ab_apply _ broadcasts_S1x256_S512x256 r cc).trans ?_
    exact congrFun (shapeCast_self v10 shapeCasts_S1x256_S1x256) (ix2 (0 : Fin 1) cc)

end Cert.KernelIdeal.Pay

end
-- ==== Proof.Spec.lean ====
/-
  The two values this certificate compares, as functions of the four argument arrays, index by index, on the
  extended reals.

  The reference's entry (n, o) is  Σ_{i < 4096} x[n,i] · (w[o,i] · mask[o,i]) + b[o].

  The kernel works on two zero-padded arrays.  `xpadAt` is x with 256 zero columns on each side (4608 columns);
  `wpadAt` is the transpose of w · mask with 256 zero rows on each side (4608 rows).  For the output column o, in the
  column block j = o / 256, the kernel contracts the 768 padded positions j·256 ≤ r < j·256 + 768 only, i.e. the
  input columns of the blocks j − 1, j, j + 1:
      Σ_{k < 768} xpad[n, j·256 + k] · wpad[j·256 + k, o] + b[o].

  The two agree when the mask vanishes off the band |o − i| ≤ 8: an input column i outside the three blocks next to
  o's block is more than 8 away from o, so its term w[o,i] · mask[o,i] is w[o,i] · 0 = 0, and a padded position
  contributes 0 · 0.  Only commutativity and associativity of the sum and x · 0 = 0 are used, so no finiteness.
-/
import Idealize.ShloMosaic.PureOps.Ideal
import Idealize.ShloMosaic.Lib.ValueIdx

noncomputable section

namespace Cert.BandSpec

open Idealize.ShloMosaic Idealize.ShloMosaic.ValueIdx

abbrev SX : Shape := ⟨2, ![16384, 4096]⟩
abbrev SW : Shape := ⟨2, ![4096, 4096]⟩
abbrev SB : Shape := ⟨1, ![4096]⟩

variable (x : FVec Ideal SX .f32) (w : FVec Ideal SW .f32) (b : FVec Ideal SB .f32) (mask : FVec Ideal SW .f32)

/-- The reference's entry (n, o): the full contraction of row n of x with row o of w · mask, plus the bias. -/
def refAt (n : Fin 16384) (o : Fin 4096) : EReal :=
  (∑ i : Fin 4096, x (ix2 n i) * (w (ix2 o i) * mask (ix2 o i))) + b (ix1 o)

/-- x with 256 zero columns on each side, read at padded column q. -/
def xpadAt (n : Fin 16384) (q : ℕ) : EReal :=
  if h : 256 ≤ q ∧ q < 4352 then x (ix2 n ⟨q - 256, by omega⟩) else 0

/-- The transpose of w · mask with 256 zero rows on each side, read at padded row r and column o. -/
def wpadAt (r : ℕ) (o : Fin 4096) : EReal :=
  if h : 256 ≤ r ∧ r < 4352 then w (ix2 o ⟨r - 256, by omega⟩) * mask (ix2 o ⟨r - 256, by omega⟩) else 0

/-- The kernel's entry (n, o): the contraction over the 768 padded positions starting at o's column block. -/
def kerAt (n : Fin 16384) (o : Fin 4096) : EReal :=
  (∑ k : Fin 768, xpadAt x n (o.val / 256 * 256 + k.val) * wpadAt w mask (o.val / 256 * 256 + k.val) o) + b (ix1 o)

/-- The reference's result array. -/
def refVal : FVec Ideal SX .f32 := fun i => refAt x w b mask (i 0) (i 1)

/-- The kernel's result array. -/
def kerVal : FVec Ideal SX .f32 := fun i => kerAt x w b mask (i 0) (i 1)

/-- A padded position r = i + 256 with i an input column: the padded product is the reference's term for i. -/
private theorem pad_mul_eq (n : Fin 16384) (o : Fin 4096) (q : ℕ) (i : Fin 4096) (hq : q = i.val + 256) :
    xpadAt x n q * wpadAt w mask q o = x (ix2 n i) * (w (ix2 o i) * mask (ix2 o i)) := by
  subst hq
  have h : 256 ≤ i.val + 256 ∧ i.val + 256 < 4352 := ⟨by omega, by omega⟩
  unfold xpadAt wpadAt
  rw [dif_pos h, dif_pos h]
  simp only [Nat.add_sub_cancel, Fin.eta]

/-- A padded position outside [256, 4352) lies in the zero padding: the padded product is 0 · 0 = 0. -/
private theorem pad_mul_zero (n : Fin 16384) (o : Fin 4096) (q : ℕ) (h : ¬ (256 ≤ q ∧ q < 4352)) :
    xpadAt x n q * wpadAt w mask q o = 0 := by
  unfold xpadAt wpadAt
  rw [dif_neg h, dif_neg h, zero_mul]

/-- Under the band hypothesis the windowed contraction is the full one. -/
theorem kerAt_eq_refAt
    (hband : ∀ o i : Fin 4096, (o.val ≤ i.val + 8 ∧ i.val ≤ o.val + 8) ∨ mask (ix2 o i) = 0)
    (n : Fin 16384) (o : Fin 4096) : kerAt x w b mask n o = refAt x w b mask n o := by
  unfold kerAt refAt
  congr 1
  -- j = o / 256 is o's column block: j·256 ≤ o < j·256 + 256.
  have hjlo : o.val / 256 * 256 ≤ o.val := Nat.div_mul_le_self _ _
  have hjhi : o.val < o.val / 256 * 256 + 256 := by
    have h1 := Nat.div_add_mod o.val 256
    have h2 := Nat.mod_lt o.val (by norm_num : 256 > 0)
    omega
  generalize o.val / 256 = j at hjlo hjhi ⊢
  -- a window position whose term is not 0 is not in the padding
  have hin : ∀ k : Fin 768,
      xpadAt x n (j * 256 + k.val) * wpadAt w mask (j * 256 + k.val) o ≠ 0 →
        256 ≤ j * 256 + k.val ∧ j * 256 + k.val < 4352 := by
    intro k hk
    by_contra hc
    exact hk (pad_mul_zero x w mask n o _ hc)
  -- the terms that are not 0 on either side correspond by r = i + 256
  refine Finset.sum_bij_ne_zero
    (fun k _ hk => (⟨j * 256 + k.val - 256, by have := hin k hk; omega⟩ : Fin 4096)) ?_ ?_ ?_ ?_
  · intro k _ hk
    exact Finset.mem_univ _
  · intro k₁ _ hk₁ k₂ _ hk₂ heq
    have h1 := hin k₁ hk₁
    have h2 := hin k₂ hk₂
    have h3 : j * 256 + k₁.val - 256 = j * 256 + k₂.val - 256 := congrArg Fin.val heq
    exact Fin.ext (by omega)
  · intro i _ hi
    rcases hband o i with hb | hb
    · have hk : i.val + 256 - j * 256 < 768 := by omega
      have hq : j * 256 + (i.val + 256 - j * 256) = i.val + 256 := by omega
      have hterm := pad_mul_eq x w mask n o (j * 256 + (i.val + 256 - j * 256)) i hq
      refine ⟨⟨i.val + 256 - j * 256, hk⟩, Finset.mem_univ _, ?_, ?_⟩
      · show xpadAt x n (j * 256 + (i.val + 256 - j * 256)) *
            wpadAt w mask (j * 256 + (i.val + 256 - j * 256)) o ≠ 0
        rw [hterm]
        exact hi
      · exact Fin.ext (by show j * 256 + (i.val + 256 - j * 256) - 256 = i.val; omega)
    · exact absurd (by rw [hb, mul_zero, mul_zero]) hi
  · intro k _ hk
    have h1 := hin k hk
    exact pad_mul_eq x w mask n o _ _ (by show j * 256 + k.val = j * 256 + k.val - 256 + 256; omega)

theorem kerVal_eq_refVal
    (hband : ∀ o i : Fin 4096, (o.val ≤ i.val + 8 ∧ i.val ≤ o.val + 8) ∨ mask (ix2 o i) = 0) :
    kerVal x w b mask = refVal x w b mask :=
  funext fun i => kerAt_eq_refAt x w b mask hband (i 0) (i 1)

end Cert.BandSpec

end
-- ==== Proof.HostI.lean ====
/-
  What two of the three arrays the launch stages hold, at an index, as functions of the program's arguments (at the exact
  instance).

  * The padded x (4608 columns): column q is x's column q − 256 for 256 ≤ q < 4352 and zero otherwise (the padding value
    is the integer 0 converted to a float).
  * The bias as a row: entry (0, o) is b[o].
-/
import proofs.«420151_j14474039788006_3_alg».proof.Proof.EntryI
import proofs.«420151_j14474039788006_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.HostVal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The padding value: the integer zero converted to a float is the real zero. -/
theorem padval_eq :
    (sitofp (F := Ideal) .f32 (constantI S_ 32 0#32) : S_.Idx → EReal) (Shape.Idx.first h_S_) = 0 := by
  show ((((0#32 : BitVec 32).toInt : ℤ) : ℝ) : EReal) = 0
  simp

/-- An array of 4096 columns padded by 256 columns on each side (no rows added, nothing put between entries): in the
    middle 4096 columns the padded array is the operand 256 columns to the left, elsewhere it is the padding value. -/
theorem pad_cols_apply (x : S16384x4096.Idx → EReal) (v : S_.Idx → EReal) (n : Fin 16384) (q : Fin 4608) :
    pad S16384x4608 ![0, 256] ![0, 256] ![0, 0] x v pads_S16384x4096_S16384x4608_000_2562560 h_S_ (ix2 n q)
      = if h : 256 ≤ q.val ∧ q.val < 4352 then x (ix2 n ⟨q.val - 256, by omega⟩) else v (Shape.Idx.first h_S_) := by
  by_cases h : 256 ≤ q.val ∧ q.val < 4352
  · rw [dif_pos h]
    refine pad_apply_of_inside _ _ _ x v _ h_S_ (ix2 n q) (ix2 n ⟨q.val - 256, by omega⟩) (fun a => ?_)
    match a with
    | ⟨0, _⟩ => show n.val = 0 + n.val * (0 + 1); omega
    | ⟨1, _⟩ => show q.val = 256 + (q.val - 256) * (0 + 1); omega
  · rw [dif_neg h]
    refine pad_apply_of_not_inside _ _ _ x v _ h_S_ (ix2 n q) (1 : Fin 2) (fun hin => h ?_)
    have h1 : 256 ≤ q.val := hin.1
    have h3 : (q.val - 256) / (0 + 1) < 4096 := hin.2.2
    rw [Nat.zero_add, Nat.div_one] at h3
    omega

/-- The padded x at row n, column q. -/
theorem xpad_apply (c : Dev nD) (n : Fin 16384) (q : Fin 4608) :
    (Fr.V m c main_v38 : S16384x4608.Idx → EReal) (ix2 n q)
      = Cert.BandSpec.xpadAt (m ((c : Thread nD τ).loc main_arg0)) n q.val := by
  have e : (Fr.V m c main_v38 : S16384x4608.Idx → EReal)
      = pad S16384x4608 ![0, 256] ![0, 256] ![0, 0] (m ((c : Thread nD τ).loc main_arg0) : S16384x4096.Idx → EReal)
          (sitofp (F := Ideal) .f32 (constantI S_ 32 0#32)) pads_S16384x4096_S16384x4608_000_2562560 h_S_ := by
    dsimp only [Fr.V]
    simp only [hostOps0, hostOps0_1, hostOps0_2, hostOps0_3, List.flatten_cons, List.flatten_nil, List.append_nil,
      List.cons_append, List.nil_append]
    after_results
    rfl
  rw [e, pad_cols_apply, padval_eq]
  rfl

/-- The bias as a row, at column o. -/
theorem bias_apply (c : Dev nD) (o : Fin 4096) :
    (Fr.V m c main_v37 : S1x4096.Idx → EReal) (ix2 (0 : Fin 1) o) = m ((c : Thread nD τ).loc main_arg2) (ix1 o) := by
  have e : (Fr.V m c main_v37 : S1x4096.Idx → EReal)
      = shapeCast S1x4096 (m ((c : Thread nD τ).loc main_arg2) : S4096.Idx → EReal) shapeCasts_S4096_S1x4096 := by
    dsimp only [Fr.V]
    simp only [hostOps0, hostOps0_1, hostOps0_2, hostOps0_3, List.flatten_cons, List.flatten_nil, List.append_nil,
      List.cons_append, List.nil_append]
    after_results
    rfl
  rw [e]
  exact shapeCast_a_1a_apply _ shapeCasts_S4096_S1x4096 (0 : Fin 1) o

end Cert.KernelIdeal.HostVal

end
-- ==== Proof.HostW.lean ====
/-
  What the stacked weight slabs the launch stages hold, at an index, as a function of the program's arguments (at the
  exact instance).

  The array is 16 × 768 × 256.  Slab j is rows j·256 … j·256 + 767 and columns j·256 … j·256 + 255 of the transpose of
  w ⊙ mask padded by 256 zero rows above and below (the padding value is the integer 0 converted to a float); so its
  entry (j, k, c) is that padded array at row j·256 + k, column j·256 + c, which is w[o, r − 256] · mask[o, r − 256]
  with r = j·256 + k and o = j·256 + c when 256 ≤ r < 4352, and zero otherwise.  The stacking is a concatenation of
  the sixteen slabs, each first given a leading axis of extent one; the change of format to bf16 is the identity on
  exact values.
-/
import proofs.«420151_j14474039788006_3_alg».proof.Proof.EntryI
import proofs.«420151_j14474039788006_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.HostVal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

open Idealize.ShloMosaic.StableHlo in
/-- One step of reading a buffer after a line of host operations: the operation's own result, or what was there. -/
local macro "results_step" : tactic =>
  `(tactic| first
      | rw [nullary_result] | rw [unary_result] | rw [binary_result] | rw [reshape_result]
      | (rw [nary_result]; dsimp only [Matrix.cons_val])
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide))

/-- The transpose of w ⊙ mask with 256 rows of the converted integer zero above and below. -/
private abbrev wpadArr (w mask : FVec Ideal S4096x4096 .f32) : FVec Ideal S4608x4096 .f32 :=
  pad S4608x4096 ![256, 0] ![256, 0] ![0, 0]
    (transpose S4096x4096 [1, 0] (mulf w mask) transposes_S4096x4096_S4096x4096_1_0)
    (sitofp .f32 (constantI S_ 32 0#32)) pads_S4096x4096_S4608x4096_2562560_000 h_S_

/-- The padded transpose at row r, column o: inside the rows 256 … 4351 it is w[o, r − 256] · mask[o, r − 256]; in the
    padding it is the integer 0 converted, the real 0. -/
private theorem wpadArr_apply (w mask : FVec Ideal S4096x4096 .f32) (r : Fin 4608) (o : Fin 4096) :
    wpadArr w mask (ix2 r o) = Cert.BandSpec.wpadAt w mask r.val o := by
  unfold Cert.BandSpec.wpadAt
  by_cases h : 256 ≤ r.val ∧ r.val < 4352
  · rw [dif_pos h]
    refine (pad_apply_of_inside _ _ _ _ _ pads_S4096x4096_S4608x4096_2562560_000 h_S_ (ix2 r o)
      (ix2 (⟨r.val - 256, by omega⟩ : Fin 4096) o) ?_).trans ?_
    · intro a
      match a with
      | ⟨0, _⟩ => show r.val = 256 + (r.val - 256) * (0 + 1); omega
      | ⟨1, _⟩ => show o.val = 0 + o.val * (0 + 1); omega
    · rw [transpose_ix2_apply]
      rfl
  · rw [dif_neg h]
    refine (pad_apply_of_not_inside _ _ _ _ _ pads_S4096x4096_S4608x4096_2562560_000 h_S_ (ix2 r o) (0 : Fin 2) ?_).trans ?_
    · intro hin
      have h1 : 256 ≤ r.val := hin.1
      have h2 : (r.val - 256) / (0 + 1) < 4096 := hin.2.2
      rw [Nat.zero_add, Nat.div_one] at h2
      exact h ⟨h1, by omega⟩
    · exact sitofp_zero

/-- One slab: the array P cut at rows s … s + 767 and columns s … s + 255 and given a leading axis of extent one, at
    (0, k, cc), is P at (s + k, s + cc). -/
private theorem slab_apply {α : Type} (s : ℕ) (P : S4608x4096.Idx → α) (hs : S4608x4096.Slices ![s, s] S768x256)
    (u : Fin 1) (k : Fin 768) (cc : Fin 256) (hr : s + k.val < 4608) (ho : s + cc.val < 4096) :
    broadcastInDim S1x768x256 ![1, 2] bcast_S768x256_S1x768x256_1_2 (extractStridedSlice S768x256 ![s, s] P hs) (ix3 u k cc)
      = P (ix2 ⟨s + k.val, hr⟩ ⟨s + cc.val, ho⟩) := by
  refine (broadcastInDim_apply _ _ _ (ix3 u k cc) (ix2 k cc) ?_).trans ?_
  · intro a
    match a with
    | ⟨0, _⟩ => rfl
    | ⟨1, _⟩ => rfl
  · exact extractStridedSlice_apply _ _ hs (ix2 k cc) (ix2 ⟨s + k.val, hr⟩ ⟨s + cc.val, ho⟩)
      (fun a => match a with | ⟨0, _⟩ => rfl | ⟨1, _⟩ => rfl)

/-- Core c's buffers once the product w ⊙ mask, its transpose, the padding, the sixteen cuts and their leading unit
    axes are made, before the stacking. -/
private def G (c : Dev nD) : Valuation τ sig (Elt Ideal) :=
  StableHlo.after (List.take 32 hostOps0_2) (StableHlo.after hostOps0_1 (StableHlo.after hostOps0 (fun b => m (c, b))))

/-- Reads one piece off the line of operations before the stacking. -/
local macro "piece_read" : tactic =>
  `(tactic| (unfold G
             simp only [hostOps0, hostOps0_1, hostOps0_2, List.take_succ_cons, List.take_zero, StableHlo.after_cons,
               StableHlo.after_nil]
             repeat results_step
             simp only [StableHlo.TRef.ofBuf, StableHlo.TRef.toBuf, cast_eq]))

private theorem G_v19 (c : Dev nD) :
    (G m c (Proc.devRef .tc main_v19) : S1x768x256.Idx → EReal) = broadcastInDim S1x768x256 ![1, 2] bcast_S768x256_S1x768x256_1_2
        (extractStridedSlice S768x256 ![0, 0] (wpadArr (m ((c : Thread nD τ).loc main_arg1)) (m ((c : Thread nD τ).loc main_arg3))) slices_S4608x4096_S768x256_0_0) := by
  piece_read

private theorem G_v20 (c : Dev nD) :
    (G m c (Proc.devRef .tc main_v20) : S1x768x256.Idx → EReal) = broadcastInDim S1x768x256 ![1, 2] bcast_S768x256_S1x768x256_1_2
        (extractStridedSlice S768x256 ![256, 256] (wpadArr (m ((c : Thread nD τ).loc main_arg1)) (m ((c : Thread nD τ).loc main_arg3))) slices_S4608x4096_S768x256_256_256) := by
  piece_read

private theorem G_v21 (c : Dev nD) :
    (G m c (Proc.devRef .tc main_v21) : S1x768x256.Idx → EReal) = broadcastInDim S1x768x256 ![1, 2] bcast_S768x256_S1x768x256_1_2
        (extractStridedSlice S768x256 ![512, 512] (wpadArr (m ((c : Thread nD τ).loc main_arg1)) (m ((c : Thread nD τ).loc main_arg3))) slices_S4608x4096_S768x256_512_512) := by
  piece_read

private theorem G_v22 (c : Dev nD) :
    (G m c (Proc.devRef .tc main_v22) : S1x768x256.Idx → EReal) = broadcastInDim S1x768x256 ![1, 2] bcast_S768x256_S1x768x256_1_2
        (extractStridedSlice S768x256 ![768, 768] (wpadArr (m ((c : Thread nD τ).loc main_arg1)) (m ((c : Thread nD τ).loc main_arg3))) slices_S4608x4096_S768x256_768_768) := by
  piece_read

private theorem G_v23 (c : Dev nD) :
    (G m c (Proc.devRef .tc main_v23) : S1x768x256.Idx → EReal) = broadcastInDim S1x768x256 ![1, 2] bcast_S768x256_S1x768x256_1_2
        (extractStridedSlice S768x256 ![1024, 1024] (wpadArr (m ((c : Thread nD τ).loc main_arg1)) (m ((c : Thread nD τ).loc main_arg3))) slices_S4608x4096_S768x256_1024_1024) := by
  piece_read

private theorem G_v24 (c : Dev nD) :
    (G m c (Proc.devRef .tc main_v24) : S1x768x256.Idx → EReal) = broadcastInDim S1x768x256 ![1, 2] bcast_S768x256_S1x768x256_1_2
        (extractStridedSlice S768x256 ![1280, 1280] (wpadArr (m ((c : Thread nD τ).loc main_arg1)) (m ((c : Thread nD τ).loc main_arg3))) slices_S4608x4096_S768x256_1280_1280) := by
  piece_read

private theorem G_v25 (c : Dev nD) :
    (G m c (Proc.devRef .tc main_v25) : S1x768x256.Idx → EReal) = broadcastInDim S1x768x256 ![1, 2] bcast_S768x256_S1x768x256_1_2
        (extractStridedSlice S768x256 ![1536, 1536] (wpadArr (m ((c : Thread nD τ).loc main_arg1)) (m ((c : Thread nD τ).loc main_arg3))) slices_S4608x4096_S768x256_1536_1536) := by
  piece_read

private theorem G_v26 (c : Dev nD) :
    (G m c (Proc.devRef .tc main_v26) : S1x768x256.Idx → EReal) = broadcastInDim S1x768x256 ![1, 2] bcast_S768x256_S1x768x256_1_2
        (extractStridedSlice S768x256 ![1792, 1792] (wpadArr (m ((c : Thread nD τ).loc main_arg1)) (m ((c : Thread nD τ).loc main_arg3))) slices_S4608x4096_S768x256_1792_1792) := by
  piece_read

private theorem G_v27 (c : Dev nD) :
    (G m c (Proc.devRef .tc main_v27) : S1x768x256.Idx → EReal) = broadcastInDim S1x768x256 ![1, 2] bcast_S768x256_S1x768x256_1_2
        (extractStridedSlice S768x256 ![2048, 2048] (wpadArr (m ((c : Thread nD τ).loc main_arg1)) (m ((c : Thread nD τ).loc main_arg3))) slices_S4608x4096_S768x256_2048_2048) := by
  piece_read

private theorem G_v28 (c : Dev nD) :
    (G m c (Proc.devRef .tc main_v28) : S1x768x256.Idx → EReal) = broadcastInDim S1x768x256 ![1, 2] bcast_S768x256_S1x768x256_1_2
        (extractStridedSlice S768x256 ![2304, 2304] (wpadArr (m ((c : Thread nD τ).loc main_arg1)) (m ((c : Thread nD τ).loc main_arg3))) slices_S4608x4096_S768x256_2304_2304) := by
  piece_read

private theorem G_v29 (c : Dev nD) :
    (G m c (Proc.devRef .tc main_v29) : S1x768x256.Idx → EReal) = broadcastInDim S1x768x256 ![1, 2] bcast_S768x256_S1x768x256_1_2
        (extractStridedSlice S768x256 ![2560, 2560] (wpadArr (m ((c : Thread nD τ).loc main_arg1)) (m ((c : Thread nD τ).loc main_arg3))) slices_S4608x4096_S768x256_2560_2560) := by
  piece_read

private theorem G_v30 (c : Dev nD) :
    (G m c (Proc.devRef .tc main_v30) : S1x768x256.Idx → EReal) = broadcastInDim S1x768x256 ![1, 2] bcast_S768x256_S1x768x256_1_2
        (extractStridedSlice S768x256 ![2816, 2816] (wpadArr (m ((c : Thread nD τ).loc main_arg1)) (m ((c : Thread nD τ).loc main_arg3))) slices_S4608x4096_S768x256_2816_2816) := by
  piece_read

private theorem G_v31 (c : Dev nD) :
    (G m c (Proc.devRef .tc main_v31) : S1x768x256.Idx → EReal) = broadcastInDim S1x768x256 ![1, 2] bcast_S768x256_S1x768x256_1_2
        (extractStridedSlice S768x256 ![3072, 3072] (wpadArr (m ((c : Thread nD τ).loc main_arg1)) (m ((c : Thread nD τ).loc main_arg3))) slices_S4608x4096_S768x256_3072_3072) := by
  piece_read

private theorem G_v32 (c : Dev nD) :
    (G m c (Proc.devRef .tc main_v32) : S1x768x256.Idx → EReal) = broadcastInDim S1x768x256 ![1, 2] bcast_S768x256_S1x768x256_1_2
        (extractStridedSlice S768x256 ![3328, 3328] (wpadArr (m ((c : Thread nD τ).loc main_arg1)) (m ((c : Thread nD τ).loc main_arg3))) slices_S4608x4096_S768x256_3328_3328) := by
  piece_read

private theorem G_v33 (c : Dev nD) :
    (G m c (Proc.devRef .tc main_v33) : S1x768x256.Idx → EReal) = broadcastInDim S1x768x256 ![1, 2] bcast_S768x256_S1x768x256_1_2
        (extractStridedSlice S768x256 ![3584, 3584] (wpadArr (m ((c : Thread nD τ).loc main_arg1)) (m ((c : Thread nD τ).loc main_arg3))) slices_S4608x4096_S768x256_3584_3584) := by
  piece_read

private theorem G_v34 (c : Dev nD) :
    (G m c (Proc.devRef .tc main_v34) : S1x768x256.Idx → EReal) = broadcastInDim S1x768x256 ![1, 2] bcast_S768x256_S1x768x256_1_2
        (extractStridedSlice S768x256 ![3840, 3840] (wpadArr (m ((c : Thread nD τ).loc main_arg1)) (m ((c : Thread nD τ).loc main_arg3))) slices_S4608x4096_S768x256_3840_3840) := by
  piece_read

/-- The stacked array: the sixteen pieces concatenated along the leading axis, then the change of format. -/
private theorem V36_eq (c : Dev nD) :
    (Fr.V m c main_v36 : S16x768x256.Idx → EReal) =
      truncf (F := Ideal) .bf16 (concatenate S16x768x256 0
        [⟨S1x768x256, broadcastInDim S1x768x256 ![1, 2] bcast_S768x256_S1x768x256_1_2
        (extractStridedSlice S768x256 ![0, 0] (wpadArr (m ((c : Thread nD τ).loc main_arg1)) (m ((c : Thread nD τ).loc main_arg3))) slices_S4608x4096_S768x256_0_0)⟩,
         ⟨S1x768x256, broadcastInDim S1x768x256 ![1, 2] bcast_S768x256_S1x768x256_1_2
        (extractStridedSlice S768x256 ![256, 256] (wpadArr (m ((c : Thread nD τ).loc main_arg1)) (m ((c : Thread nD τ).loc main_arg3))) slices_S4608x4096_S768x256_256_256)⟩,
         ⟨S1x768x256, broadcastInDim S1x768x256 ![1, 2] bcast_S768x256_S1x768x256_1_2
        (extractStridedSlice S768x256 ![512, 512] (wpadArr (m ((c : Thread nD τ).loc main_arg1)) (m ((c : Thread nD τ).loc main_arg3))) slices_S4608x4096_S768x256_512_512)⟩,
         ⟨S1x768x256, broadcastInDim S1x768x256 ![1, 2] bcast_S768x256_S1x768x256_1_2
        (extractStridedSlice S768x256 ![768, 768] (wpadArr (m ((c : Thread nD τ).loc main_arg1)) (m ((c : Thread nD τ).loc main_arg3))) slices_S4608x4096_S768x256_768_768)⟩,
         ⟨S1x768x256, broadcastInDim S1x768x256 ![1, 2] bcast_S768x256_S1x768x256_1_2
        (extractStridedSlice S768x256 ![1024, 1024] (wpadArr (m ((c : Thread nD τ).loc main_arg1)) (m ((c : Thread nD τ).loc main_arg3))) slices_S4608x4096_S768x256_1024_1024)⟩,
         ⟨S1x768x256, broadcastInDim S1x768x256 ![1, 2] bcast_S768x256_S1x768x256_1_2
        (extractStridedSlice S768x256 ![1280, 1280] (wpadArr (m ((c : Thread nD τ).loc main_arg1)) (m ((c : Thread nD τ).loc main_arg3))) slices_S4608x4096_S768x256_1280_1280)⟩,
         ⟨S1x768x256, broadcastInDim S1x768x256 ![1, 2] bcast_S768x256_S1x768x256_1_2
        (extractStridedSlice S768x256 ![1536, 1536] (wpadArr (m ((c : Thread nD τ).loc main_arg1)) (m ((c : Thread nD τ).loc main_arg3))) slices_S4608x4096_S768x256_1536_1536)⟩,
         ⟨S1x768x256, broadcastInDim S1x768x256 ![1, 2] bcast_S768x256_S1x768x256_1_2
        (extractStridedSlice S768x256 ![1792, 1792] (wpadArr (m ((c : Thread nD τ).loc main_arg1)) (m ((c : Thread nD τ).loc main_arg3))) slices_S4608x4096_S768x256_1792_1792)⟩,
         ⟨S1x768x256, broadcastInDim S1x768x256 ![1, 2] bcast_S768x256_S1x768x256_1_2
        (extractStridedSlice S768x256 ![2048, 2048] (wpadArr (m ((c : Thread nD τ).loc main_arg1)) (m ((c : Thread nD τ).loc main_arg3))) slices_S4608x4096_S768x256_2048_2048)⟩,
         ⟨S1x768x256, broadcastInDim S1x768x256 ![1, 2] bcast_S768x256_S1x768x256_1_2
        (extractStridedSlice S768x256 ![2304, 2304] (wpadArr (m ((c : Thread nD τ).loc main_arg1)) (m ((c : Thread nD τ).loc main_arg3))) slices_S4608x4096_S768x256_2304_2304)⟩,
         ⟨S1x768x256, broadcastInDim S1x768x256 ![1, 2] bcast_S768x256_S1x768x256_1_2
        (extractStridedSlice S768x256 ![2560, 2560] (wpadArr (m ((c : Thread nD τ).loc main_arg1)) (m ((c : Thread nD τ).loc main_arg3))) slices_S4608x4096_S768x256_2560_2560)⟩,
         ⟨S1x768x256, broadcastInDim S1x768x256 ![1, 2] bcast_S768x256_S1x768x256_1_2
        (extractStridedSlice S768x256 ![2816, 2816] (wpadArr (m ((c : Thread nD τ).loc main_arg1)) (m ((c : Thread nD τ).loc main_arg3))) slices_S4608x4096_S768x256_2816_2816)⟩,
         ⟨S1x768x256, broadcastInDim S1x768x256 ![1, 2] bcast_S768x256_S1x768x256_1_2
        (extractStridedSlice S768x256 ![3072, 3072] (wpadArr (m ((c : Thread nD τ).loc main_arg1)) (m ((c : Thread nD τ).loc main_arg3))) slices_S4608x4096_S768x256_3072_3072)⟩,
         ⟨S1x768x256, broadcastInDim S1x768x256 ![1, 2] bcast_S768x256_S1x768x256_1_2
        (extractStridedSlice S768x256 ![3328, 3328] (wpadArr (m ((c : Thread nD τ).loc main_arg1)) (m ((c : Thread nD τ).loc main_arg3))) slices_S4608x4096_S768x256_3328_3328)⟩,
         ⟨S1x768x256, broadcastInDim S1x768x256 ![1, 2] bcast_S768x256_S1x768x256_1_2
        (extractStridedSlice S768x256 ![3584, 3584] (wpadArr (m ((c : Thread nD τ).loc main_arg1)) (m ((c : Thread nD τ).loc main_arg3))) slices_S4608x4096_S768x256_3584_3584)⟩,
         ⟨S1x768x256, broadcastInDim S1x768x256 ![1, 2] bcast_S768x256_S1x768x256_1_2
        (extractStridedSlice S768x256 ![3840, 3840] (wpadArr (m ((c : Thread nD τ).loc main_arg1)) (m ((c : Thread nD τ).loc main_arg3))) slices_S4608x4096_S768x256_3840_3840)⟩]
        concatenates_S1x768x256_S1x768x256_S1x768x256_S1x768x256_S1x768x256_S1x768x256_S1x768x256_S1x768x256_S1x768x256_S1x768x256_S1x768x256_S1x768x256_S1x768x256_S1x768x256_S1x768x256_S1x768x256_S16x768x256_d0) bitsLt_bf16_f32 := by
  dsimp only [Fr.V]
  simp only [List.flatten_cons, List.flatten_nil, List.append_nil]
  rw [← List.take_append_drop 32 (hostOps0_2 (F := Ideal))]
  simp only [List.append_assoc]
  rw [StableHlo.after_append, StableHlo.after_append, StableHlo.after_append]
  change StableHlo.after _ (G m c) _ = _
  rw [← G_v19 m c, ← G_v20 m c, ← G_v21 m c, ← G_v22 m c, ← G_v23 m c, ← G_v24 m c, ← G_v25 m c, ← G_v26 m c, ← G_v27 m c, ← G_v28 m c, ← G_v29 m c, ← G_v30 m c, ← G_v31 m c, ← G_v32 m c, ← G_v33 m c, ← G_v34 m c]
  generalize G m c = W
  simp only [hostOps0_2, hostOps0_3, List.drop_succ_cons, List.drop_zero, List.cons_append, List.nil_append,
    StableHlo.after_cons, StableHlo.after_nil]
  repeat results_step

/-- Slab n's cut, rows n·256 … n·256 + 767 and columns n·256 … n·256 + 255, lies inside the padded array. -/
private theorem slab_slices (n : Fin 16) : S4608x4096.Slices ![n.val * 256, n.val * 256] S768x256 :=
  ⟨rfl, fun a => match a with
    | ⟨0, _⟩ => by have := n.isLt; show n.val * 256 + 768 ≤ 4608; omega
    | ⟨1, _⟩ => by have := n.isLt; show n.val * 256 + 256 ≤ 4096; omega⟩

/-- Slab n of an array P of the padded transpose's shape, with its leading axis of extent one. -/
private abbrev slabF (P : S4608x4096.Idx → EReal) (n : Fin 16) : S1x768x256.Idx → EReal :=
  broadcastInDim S1x768x256 ![1, 2] bcast_S768x256_S1x768x256_1_2
    (extractStridedSlice S768x256 ![n.val * 256, n.val * 256] P (slab_slices n))

/-- The stacked slabs at slab j, row k, column cc. -/
theorem wstk_apply (c : Dev nD) (j : Fin 16) (k : Fin 768) (cc : Fin 256) :
    (Fr.V m c main_v36 : S16x768x256.Idx → EReal) (ix3 j k cc)
      = Cert.BandSpec.wpadAt (m ((c : Thread nD τ).loc main_arg1)) (m ((c : Thread nD τ).loc main_arg3))
          (j.val * 256 + k.val) ⟨j.val * 256 + cc.val, by have := j.isLt; have := cc.isLt; omega⟩ := by
  have hj := j.isLt
  have hk := k.isLt
  have hc := cc.isLt
  rw [V36_eq, truncf_apply]
  -- the sixteen pieces are slab n for n = 0 … 15, so the index's leading coordinate j names slab j
  show concatenate S16x768x256 0
      (List.ofFn fun n : Fin 16 =>
        (⟨S1x768x256, slabF (wpadArr (m ((c : Thread nD τ).loc main_arg1)) (m ((c : Thread nD τ).loc main_arg3))) n⟩ : (s : Shape) × (s.Idx → EReal)))
      concatenates_S1x768x256_S1x768x256_S1x768x256_S1x768x256_S1x768x256_S1x768x256_S1x768x256_S1x768x256_S1x768x256_S1x768x256_S1x768x256_S1x768x256_S1x768x256_S1x768x256_S1x768x256_S1x768x256_S16x768x256_d0 (ix3 j k cc) = _
  refine (concatenate_ofFn_unit_apply (t := S16x768x256) (s₁ := S1x768x256) 0
    (fun n : Fin 16 => slabF (wpadArr (m ((c : Thread nD τ).loc main_arg1)) (m ((c : Thread nD τ).loc main_arg3))) n)
    concatenates_S1x768x256_S1x768x256_S1x768x256_S1x768x256_S1x768x256_S1x768x256_S1x768x256_S1x768x256_S1x768x256_S1x768x256_S1x768x256_S1x768x256_S1x768x256_S1x768x256_S1x768x256_S1x768x256_S16x768x256_d0 rfl rfl (ix3 j k cc) j rfl (ix3 (0 : Fin 1) k cc) ?_).trans ?_
  · intro b hb
    match b with
    | ⟨0, _⟩ => exact absurd rfl hb
    | ⟨1, _⟩ => rfl
    | ⟨2, _⟩ => rfl
  · -- slab j at (0, k, cc) is the padded transpose at row j·256 + k, column j·256 + cc
    exact (slab_apply (j.val * 256) _ (slab_slices j) 0 k cc (by omega) (by omega)).trans (wpadArr_apply _ _ _ _)

end Cert.KernelIdeal.HostVal

end
-- ==== Proof.ValueI.lean ====
/-
  The kernel's result array as one function of the program's arguments (at the exact instance).

  Point t of the 32 × 16 grid is the tile (i, j) = (t / 16, t mod 16).  There the x tile's block is rows
  512·i … 512·i + 511 of the padded x, of which the body loads the 768 columns from 256·j; the table's block is the whole
  table, of which the body loads slab j; the bias piece is columns 256·j … 256·j + 255 of the bias row.  So what the
  point writes back, at (r, c) of its 512 × 256 tile, is
      Σ_{k < 768} xpad[512·i + r, 256·j + k] · wpad[256·j + k, 256·j + c] + b[256·j + c],
  which is the specification's entry (n, o) at n = 512·i + r, o = 256·j + c, because o / 256 = j.  The output tiles
  of the 512 points tile the whole 16384 × 4096 array: the entry (n, o) lies in the tile of the point
  (n / 512)·16 + o / 256.  Hence the array ends at the specification's function of the arguments.
-/
import proofs.«420151_j14474039788006_3_alg».proof.Proof.FrameI
import proofs.«420151_j14474039788006_3_alg».proof.Proof.PayI
import proofs.«420151_j14474039788006_3_alg».proof.Proof.HostI
import proofs.«420151_j14474039788006_3_alg».proof.Proof.HostW
import proofs.«420151_j14474039788006_3_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's kernel value of core `c`'s four argument arrays. -/
abbrev KV (c : Dev nD) : S16384x4096.Idx → EReal :=
  Cert.BandSpec.kerVal (m ((c : Thread nD τ).loc main_arg0)) (m ((c : Thread nD τ).loc main_arg1))
    (m ((c : Thread nD τ).loc main_arg2)) (m ((c : Thread nD τ).loc main_arg3))

theorem hz : (![0, 0] : Fin 2 → Nat) = fun _ => 0 := funext fun a => by fin_cases a <;> rfl

/-- The grid has 512 points. -/
theorem tN (t : Fin cfg0.N) : t.val < 512 := lt_of_lt_of_eq t.isLt N_0

/-- The block index of each window and the offsets of the body's two windowed loads, at point t = 16·i + j, decided over
    the grid: the x tile is at block (i, 0), the table at block 0, the bias piece at block (0, j), the output tile at
    block (i, j); the x load starts at column 256·j, the table load at slab j. -/
theorem idx_facts : ∀ t : Fin cfg0.N,
    win0_0.index t (0 : Fin 2) = t.val / 16 ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val % 16
    ∧ win0_3.index t (0 : Fin 2) = t.val / 16 ∧ win0_3.index t (1 : Fin 2) = t.val % 16
    ∧ k0_off1 (grid0.coords t) (0 : Fin 2) = 0 ∧ k0_off1 (grid0.coords t) (1 : Fin 2) = t.val % 16 * 256
    ∧ k0_off2 (grid0.coords t) (0 : Fin 3) = t.val % 16 ∧ k0_off2 (grid0.coords t) (1 : Fin 3) = 0 ∧ k0_off2 (grid0.coords t) (2 : Fin 3) = 0 :=
  (by decide +kernel : ∀ t : Fin grid0.N, _)

/-! ## The loaded values, read off the staged arrays -/

/-- The x columns the body loads at point t: rows 512·(t/16) + r, columns 256·(t mod 16) + k of the padded x. -/
theorem xblk_apply (c : Dev nD) (t : Fin cfg0.N) (r : Fin 512) (k : Fin 768) :
    (View.ld (iblk m c 0 t) (r0_0 (grid0.coords t)) : S512x768.Idx → EReal) (ix2 r k)
      = (V m c main_v38 : S16384x4608.Idx → EReal)
          (ix2 ⟨t.val / 16 * 512 + r.val, by have := tN t; have := r.isLt; omega⟩ ⟨t.val % 16 * 256 + k.val, by have := k.isLt; omega⟩) := by
  obtain ⟨e0, e1, -, -, -, -, -, -, -, f0, f1, -⟩ := idx_facts t
  have h : ((cfg0.win 0).blk t).view.emb ((r0_0 (grid0.coords t)).idx (ix2 r k))
      = ix2 (⟨t.val / 16 * 512 + r.val, by have := tN t; have := r.isLt; omega⟩ : Fin 16384) (⟨t.val % 16 * 256 + k.val, by have := k.isLt; omega⟩ : Fin 4608) := by
    funext a; apply Fin.ext
    match a with
    | ⟨0, _⟩ => show win0_0.index t (0 : Fin 2) * 512 + 1 * (k0_off1 (grid0.coords t) (0 : Fin 2) + 1 * r.val) = t.val / 16 * 512 + r.val; omega
    | ⟨1, _⟩ => show win0_0.index t (1 : Fin 2) * 4608 + 1 * (k0_off1 (grid0.coords t) (1 : Fin 2) + 1 * k.val) = t.val % 16 * 256 + k.val; omega
  show V m c main_v38 (((cfg0.win 0).blk t).view.emb ((r0_0 (grid0.coords t)).idx (ix2 r k))) = _
  rw [h]

/-- The slab the body loads at point t: slab t mod 16 of the table. -/
theorem wblk_apply (c : Dev nD) (t : Fin cfg0.N) (k : Fin 768) (cc : Fin 256) :
    (View.ld (iblk m c 1 t) (r0_1 (grid0.coords t)) : S1x768x256.Idx → EReal) (ix3 (0 : Fin 1) k cc)
      = (V m c main_v36 : S16x768x256.Idx → EReal) (ix3 ⟨t.val % 16, by omega⟩ k cc) := by
  obtain ⟨-, -, e0, e1, e2, -, -, -, -, -, -, f0, f1, f2⟩ := idx_facts t
  have h : ((cfg0.win 1).blk t).view.emb ((r0_1 (grid0.coords t)).idx (ix3 (0 : Fin 1) k cc))
      = ix3 (⟨t.val % 16, by omega⟩ : Fin 16) k cc := by
    funext a; apply Fin.ext
    match a with
    | ⟨0, _⟩ => show win0_1.index t (0 : Fin 3) * 16 + 1 * (k0_off2 (grid0.coords t) (0 : Fin 3) + 1 * 0) = t.val % 16; omega
    | ⟨1, _⟩ => show win0_1.index t (1 : Fin 3) * 768 + 1 * (k0_off2 (grid0.coords t) (1 : Fin 3) + 1 * k.val) = k.val; omega
    | ⟨2, _⟩ => show win0_1.index t (2 : Fin 3) * 256 + 1 * (k0_off2 (grid0.coords t) (2 : Fin 3) + 1 * cc.val) = cc.val; omega
  show V m c main_v36 (((cfg0.win 1).blk t).view.emb ((r0_1 (grid0.coords t)).idx (ix3 (0 : Fin 1) k cc))) = _
  rw [h]

/-- The bias piece the body loads at point t: columns 256·(t mod 16) + c of the bias row. -/
theorem bblk_apply (c : Dev nD) (t : Fin cfg0.N) (cc : Fin 256) :
    (View.ld (iblk m c 2 t) r0_2 : S1x256.Idx → EReal) (ix2 (0 : Fin 1) cc)
      = (V m c main_v37 : S1x4096.Idx → EReal) (ix2 (0 : Fin 1) ⟨t.val % 16 * 256 + cc.val, by have := cc.isLt; omega⟩) := by
  obtain ⟨-, -, -, -, -, e0, e1, -⟩ := idx_facts t
  have h : ((cfg0.win 2).blk t).view.emb (r0_2.idx (ix2 (0 : Fin 1) cc))
      = ix2 (0 : Fin 1) (⟨t.val % 16 * 256 + cc.val, by have := cc.isLt; omega⟩ : Fin 4096) := by
    funext a; apply Fin.ext
    match a with
    | ⟨0, _⟩ => show win0_2.index t (0 : Fin 2) * 1 + 1 * (0 + 1 * 0) = 0; omega
    | ⟨1, _⟩ => show win0_2.index t (1 : Fin 2) * 256 + 1 * (0 + 1 * cc.val) = t.val % 16 * 256 + cc.val; omega
  show V m c main_v37 (((cfg0.win 2).blk t).view.emb (r0_2.idx (ix2 (0 : Fin 1) cc))) = _
  rw [h]

/-- Where entry (r, c) of point t's output tile sits in the result array. -/
theorem oemb (t : Fin cfg0.N) (r : Fin 512) (cc : Fin 256) :
    ((cfg0.win 3).blk t).view.emb (ix2 r cc)
      = ix2 (⟨t.val / 16 * 512 + r.val, by have := tN t; have := r.isLt; omega⟩ : Fin 16384)
          (⟨t.val % 16 * 256 + cc.val, by have := cc.isLt; omega⟩ : Fin 4096) := by
  obtain ⟨-, -, -, -, -, -, -, e0, e1, -⟩ := idx_facts t
  funext a; apply Fin.ext
  match a with
  | ⟨0, _⟩ => show win0_3.index t (0 : Fin 2) * 512 + 1 * r.val = t.val / 16 * 512 + r.val; omega
  | ⟨1, _⟩ => show win0_3.index t (1 : Fin 2) * 256 + 1 * cc.val = t.val % 16 * 256 + cc.val; omega

/-! ## What a point writes back -/

/-- What point t writes back is its tile of the specification's kernel value of the arguments. -/
theorem flushed_eq (c : Dev nD) (t : Fin cfg0.N) :
    (dats m 0 c).flushed 3 t = ((cfg0.win 3).blk t).view.read (Elt Ideal) (KV m c) := by
  show (cfg0.win 3).cut (grid0.coords t) ((dats m 0 c).after 3 t) = _
  rw [after0_3]
  unfold out0_3
  rw [View.canon_unit_zero hz]
  refine funext fun (y : S512x256.Idx) => ?_
  obtain ⟨r, cc, rfl⟩ : ∃ (r : Fin 512) (cc : Fin 256), y = ix2 r cc := ⟨y 0, y 1, eq_ix2 y⟩
  show (k0_pay1 (F := Ideal) (View.ld (iblk m c 0 t) (r0_0 (grid0.coords t))) (View.ld (iblk m c 1 t) (r0_1 (grid0.coords t)))
      (View.ld (iblk m c 2 t) r0_2) : S512x256.Idx → EReal) (ix2 r cc) = KV m c (((cfg0.win 3).blk t).view.emb (ix2 r cc))
  refine (Pay.pay_apply _ _ _ r cc).trans ?_
  rw [oemb]
  simp only [xblk_apply, wblk_apply, bblk_apply]
  have ho : (t.val % 16 * 256 + cc.val) / 256 * 256 = t.val % 16 * 256 := by have := cc.isLt; omega
  show _ = Cert.BandSpec.kerAt _ _ _ _ (⟨t.val / 16 * 512 + r.val, _⟩ : Fin 16384) (⟨t.val % 16 * 256 + cc.val, _⟩ : Fin 4096)
  unfold Cert.BandSpec.kerAt
  simp only [ho]
  refine congrArg₂ (· + ·) (Finset.sum_congr rfl fun k _ => ?_) (HostVal.bias_apply m c _)
  exact congrArg₂ (· * ·) (HostVal.xpad_apply m c _ _) (HostVal.wstk_apply m c _ k cc)

/-! ## The tiles cover the array -/

/-- An index of the result array is in point t's tile iff each coordinate is in the tile's range on its axis. -/
theorem mem_blk (t : Fin cfg0.N) (i : S16384x4096.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v39).slice (win0_3.rect t)).set ↔ _
  rw [View.set_slice_whole, Rect.mem_set_unit]
  exact Iff.rfl

/-- Every entry (n, o) lies in the tile of the point (n / 512)·16 + o / 256, which writes its tile back. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  let t : Fin cfg0.N := ⟨(i 0).val / 512 * 16 + (i 1).val / 256, by rw [show cfg0.N = 512 from N_0]; omega⟩
  have htv : t.val = (i 0).val / 512 * 16 + (i 1).val / 256 := rfl
  obtain ⟨-, -, -, -, -, -, -, e0, e1, -⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-! ## The array after the run, and the run -/

/-- The result array ends at the specification's kernel value of the arguments. -/
theorem final (c : Dev nD) : (dats m 0 c).arrAt 3 cfg0.N = KV m c :=
  (dats m 0 c).arrAt_eq_of_cover 3 (KV m c) (fun t _ => flushed_eq m c t) cover

/-- The program's run, with the result array named and the arguments unchanged. -/
theorem run : θ_run defs (onTc (τ := τ) (main (F := Ideal))) ⟨m, fun _ => 0, ρ⟩ fun r => ∀ c : Dev nD,
      r.2.mem ((c.tc : Thread nD τ).loc main_v39) = KV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KVal

end
-- ==== Proof.RefValue.lean ====
/-
  The reference's result, read at an index: entry (n, o) of  x · (w ⊙ mask)ᵀ + b  is the full contraction
  Σ_i x[n,i] · (w[o,i] · mask[o,i]) plus b[o]; the bias reaches the entry through two broadcasts that keep its
  column.
-/
import proofs.«420151_j14474039788006_3_alg».proof.Proof.Gen.ReferenceIdeal.Run
import proofs.«420151_j14474039788006_3_alg».proof.Proof.Gen.ReferenceIdeal.Read
import proofs.«420151_j14474039788006_3_alg».proof.Proof.Spec

noncomputable section

namespace Cert.ReferenceIdeal.RefValue

open Idealize.ShloMosaic Idealize.ShloMosaic.ValueIdx Cert.ReferenceIdeal Cert.ReferenceIdeal.Gen Cert.ReferenceIdeal.Read
open Idealize.SL.Sem Idealize.ShloMosaic.TcCoe

/-- For the entry i = (n, o), the contraction reads x at (n, k). -/
theorem lidx_eq (i : S16384x4096.Idx) (k : Fin 4096) :
    lidx_main_v1 i k = ix2 (n0 := 16384) (n1 := 4096) (i 0) k :=
  funext fun a => Fin.ext (by match a with | ⟨0, _⟩ => rfl | ⟨1, _⟩ => rfl)

/-- For the entry i = (n, o), the contraction reads w · mask at (o, k). -/
theorem ridx_eq (i : S16384x4096.Idx) (k : Fin 4096) :
    ridx_main_v1 i k = ix2 (n0 := 4096) (n1 := 4096) (i 1) k :=
  funext fun a => Fin.ext (by match a with | ⟨0, _⟩ => rfl | ⟨1, _⟩ => rfl)

/-- The two broadcasts of the bias, [4096] → [1, 4096] → [16384, 4096], read b at the entry's column o. -/
theorem bidx_eq (i : S16384x4096.Idx) :
    idx_main_v2 (idx_main_v3 i) = ix1 (n := 4096) (i 1) :=
  funext fun a => Fin.ext (by match a with | ⟨0, _⟩ => rfl)

/-- The reference's last stage is the specification's `refVal` of the four arguments. -/
theorem result_eq (x0 : FVec Ideal S16384x4096 .f32) (x1 : FVec Ideal S4096x4096 .f32) (x2 : FVec Ideal S4096 .f32)
    (x3 : FVec Ideal S4096x4096 .f32) :
    val_main_v4 (F := Ideal) x0 x1 x2 x3 = Cert.BandSpec.refVal x0 x1 x2 x3 := by
  funext i
  -- entry i is (the contraction at i) + (the twice-broadcast bias at i); the product w · mask sits under the sum
  rw [val_main_v4_apply, val_main_v1_apply, val_main_v3_apply, val_main_v2_apply]
  simp only [val_main_v0_apply, lidx_eq, ridx_eq, bidx_eq, Ideal.addf_def, Ideal.mulf_def]
  rfl

/-- The reference's run, with its result stated as the specification's `refVal` of the launch contents of the four
    arguments, which the run leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.BandSpec.refVal (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((Read.val_main_v4_eq _ _ _ _).trans (result_eq _ _ _ _)), (h c).2⟩)
    (Cert.ReferenceIdeal.Value.run (F := Ideal) m ρ)

end Cert.ReferenceIdeal.RefValue

end
-- ==== Proof.Band.lean ====
/-
  What the precondition says about the mask: off the band |o − i| ≤ 8 its entries are zero.

  The printed precondition is a conjunction of whole-array tests; its last conjunct is, at every (o, i),
  "(o ≤ i + 8 and i ≤ o + 8) or mask[o,i] = 0", the two comparisons made on 32-bit words that hold the row
  and column numbers.  Row and column numbers are below 4096, so the word sums do not wrap and the signed
  comparisons are the comparisons of the numbers.
-/
import proofs.«420151_j14474039788006_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.BandPre

open Idealize.ShloMosaic Idealize.ShloMosaic.ValueIdx Cert.Pre_finite_inputs

/-- The scalar shape has one index. -/
instance subsingleton_scalar_idx : Subsingleton S_.Idx := ⟨fun _ _ => funext fun d => d.elim0⟩

/-- A number below 4096 plus 8, as a 32-bit word sum: no wrap. -/
theorem word_add_eight (b : Fin 4096) :
    IntOp.addi (BitVec.ofNat 32 b.val) 8#32 = BitVec.ofNat 32 (b.val + 8) := by
  have hb := b.isLt
  apply BitVec.eq_of_toNat_eq
  simp only [IntOp.addi, BitVec.toNat_add, BitVec.toNat_ofNat]
  omega

/-- The signed word test "a ≤ b + 8" on numbers below 4096 is the test on the numbers. -/
theorem word_sle_add_eight (a b : Fin 4096) :
    IntOp.cmpi .sle (BitVec.ofNat 32 a.val) (IntOp.addi (BitVec.ofNat 32 b.val) 8#32) = 1#1 ↔ a.val ≤ b.val + 8 := by
  have ha := a.isLt
  have hb := b.isLt
  rw [word_add_eight]
  unfold IntOp.cmpi
  exact StableHlo.Predicate.sle_ofNat_iff a.val (b.val + 8) (by omega) (by omega)

/-- The float test "m = 0.0" at the ideal values is equality with zero. -/
theorem oeq_zero_iff (m : Ideal .f32) :
    FloatOps.cmpf (F := Ideal) .oeq m (FloatOps.ofBits (F := Ideal) .f32 0x00000000#32) = 1#1 ↔ m = 0 := by
  show Ideal.cmp .oeq m (Ideal.ofBits .f32 0x00000000#32) = 1#1 ↔ m = 0
  have hz : Ideal.ofBits .f32 0x00000000#32 = 0 := by simp [Ideal.ofBits, Ideal.ieee]
  rw [hz]
  simp only [Ideal.cmp, StableHlo.Predicate.ofBool_eq_one_iff, decide_eq_true_eq]

/-- Off the band the mask is zero, at every row o and column i. -/
theorem band_of_pre [Cert.Pre_finite_inputs.Facts]
    (x : FVec Ideal S16384x4096 .f32) (w : FVec Ideal S4096x4096 .f32) (b : FVec Ideal S4096 .f32)
    (mask : FVec Ideal S4096x4096 .f32)
    (h : Cert.Pre_finite_inputs.fn (F := Ideal) x w b mask = fun _ => 1#1) :
    ∀ o i : Fin 4096, (o.val ≤ i.val + 8 ∧ i.val ≤ o.val + 8) ∨ mask (ix2 o i) = 0 := by
  intro o i
  have h0 := congrFun h ValueIdx.ix0
  dsimp only [Cert.Pre_finite_inputs.fn, Cert.Pre_finite_inputs.fn_part1] at h0
  -- the last conjunct of the conjunction
  have h1 := (IntOp.andi_eq_one.1 h0).2
  -- the whole-array test, at (o, i)
  have h2 := Host.reduce_andi_all _ _ _ _ _ h1 (ix2 o i)
  rcases IntOp.ori_eq_one.1 h2 with h3 | h3
  · left
    obtain ⟨h4, h5⟩ := IntOp.andi_eq_one.1 h3
    exact ⟨(word_sle_add_eight o i).1 h4, (word_sle_add_eight i o).1 h5⟩
  · right
    exact (oeq_zero_iff (mask (ix2 o i))).1 h3

end Cert.BandPre

end
-- ==== Proof.lean ====
/-
  The certificate: a banded linear layer,  out = x · (w ⊙ mask)ᵀ + b,  computed by a kernel that contracts, for each
  block of 256 output columns, only the three neighbouring blocks of 256 input columns, against the plain full
  contraction.

  The two agree when the mask vanishes off the band |o − i| ≤ 8 (the precondition says so): an input column outside
  the three blocks next to the output column's block is more than 8 away from it, so its weight is w · 0 = 0 and it
  adds nothing to the full contraction.  On the extended reals this needs only that 0 absorbs in products and that
  finite sums may be regrouped, so finiteness of the inputs is not used.

  * The frames: each kernel program runs to the end with its arguments unchanged (the pipeline's frame, `Fr.frame`,
    once for the word-level program and once for the idealized one); the reference is five host operations.
  * The idealized program is the word-level program's own text (no rewrite), so nothing is to be preserved.
  * The values: the kernel's result array is the specification's windowed contraction of the arguments
    (`KVal.run`), the reference's the full contraction (`RefValue.run`), and under the band fact decoded from the
    precondition (`BandPre.band_of_pre`) the two are one function (`BandSpec.kerVal_eq_refVal`).
-/
import proofs.«420151_j14474039788006_3_alg».proof.Defs
import proofs.«420151_j14474039788006_3_alg».proof.Proof.Gen.Kernel
import proofs.«420151_j14474039788006_3_alg».proof.Proof.Gen.KernelIdeal
import proofs.«420151_j14474039788006_3_alg».proof.Proof.Gen.ReferenceIdeal
import proofs.«420151_j14474039788006_3_alg».proof.Proof.Gen.Pre_finite_inputs
import proofs.«420151_j14474039788006_3_alg».proof.Proof.FrameK
import proofs.«420151_j14474039788006_3_alg».proof.Proof.FrameI
import proofs.«420151_j14474039788006_3_alg».proof.Proof.ValueI
import proofs.«420151_j14474039788006_3_alg».proof.Proof.RefValue
import proofs.«420151_j14474039788006_3_alg».proof.Proof.Band
import proofs.«420151_j14474039788006_3_alg».proof.Proof.Spec
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end, the kernel's result at the windowed contraction of its arguments and the reference's at the full
    contraction of arguments that agree with them; the band fact makes the two one function. -/
theorem algebraic : Cert.algebraic_KernelIdeal_ReferenceIdeal := by
  intro m ρ m' ρ' hpre hagree
  refine ⟨fun c => Cert.KernelIdeal.KVal.KV m c, Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact (Cert.BandSpec.kerVal_eq_refVal _ _ _ _ (Cert.BandPre.band_of_pre _ _ _ _ (hpre c))).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, trivial, Cert.Proof.algebraic⟩

end
